-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S65535x4 : Shape := ⟨2, ![65535, 4]⟩
abbrev S4194304 : Shape := ⟨1, ![4194304]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S65535x4 32) (main_arg2 : IVec S4194304 32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg3
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x2048x4096 : Shape := ⟨3, ![4, 2048, 4096]⟩
abbrev S65535x4 : Shape := ⟨2, ![65535, 4]⟩
abbrev S4194304 : Shape := ⟨1, ![4194304]⟩
abbrev S4096 : Shape := ⟨1, ![4096]⟩
abbrev S_ : Shape := ⟨0, ![]⟩
abbrev S4194304x1 : Shape := ⟨2, ![4194304, 1]⟩
abbrev S4194304x4 : Shape := ⟨2, ![4194304, 4]⟩
abbrev S4096x4096 : Shape := ⟨2, ![4096, 4096]⟩
abbrev S8192x4096 : Shape := ⟨2, ![8192, 4096]⟩
abbrev S1x4096 : Shape := ⟨2, ![1, 4096]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩

abbrev nBuf : Space → Nat
  | .hbm => 20
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S65535x4, .i32⟩
  | .hbm, ⟨2, _⟩ => ⟨S4194304, .i32⟩
  | .hbm, ⟨3, _⟩ => ⟨S4096, .f32⟩
  | .hbm, ⟨4, _⟩ => ⟨S_, .i32⟩
  | .hbm, ⟨5, _⟩ => ⟨S4194304, .i32⟩
  | .hbm, ⟨6, _⟩ => ⟨S4194304, .i1⟩
  | .hbm, ⟨7, _⟩ => ⟨S_, .i32⟩
  | .hbm, ⟨8, _⟩ => ⟨S4194304, .i32⟩
  | .hbm, ⟨9, _⟩ => ⟨S4194304, .i32⟩
  | .hbm, ⟨10, _⟩ => ⟨S4194304, .i32⟩
  | .hbm, ⟨11, _⟩ => ⟨S4194304x1, .i32⟩
  | .hbm, ⟨12, _⟩ => ⟨S4194304x4, .i32⟩
  | .hbm, ⟨13, _⟩ => ⟨S4096x4096, .i32⟩
  | .hbm, ⟨14, _⟩ => ⟨S4096x4096, .bf16⟩
  | .hbm, ⟨15, _⟩ => ⟨S8192x4096, .f32⟩
  | .hbm, ⟨16, _⟩ => ⟨S8192x4096, .bf16⟩
  | .hbm, ⟨17, _⟩ => ⟨S1x4096, .f32⟩
  | .hbm, ⟨18, _⟩ => ⟨S8192x4096, .f32⟩
  | .hbm, ⟨19, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4194304 : S_.BroadcastsInDim S4194304 (![] : Fin 0 → Fin S4194304.rank)
  bcast_S4194304_S4194304x1_0 : S4194304.BroadcastsInDim S4194304x1 (![0] : Fin 1 → Fin S4194304x1.rank)
  shapeCasts_S4194304x4_S4096x4096 : S4194304x4.ShapeCasts S4096x4096
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  gather_S65535x4_S4194304x1_S4194304x4_1_0_n_n_0_1_14_wf : GatherDims.WF S65535x4 S4194304x1 S4194304x4 [1] [0] [] [0] [] 1 ![1, 4]
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def gather_S65535x4_S4194304x1_S4194304x4_1_0_n_n_0_1_14 : GatherDims S65535x4 S4194304x1 S4194304x4 where
  offsetDims := [1]
  collapsedSliceDims := [0]
  operandBatchingDims := []
  startIndicesBatchingDims := []
  startIndexMap := [0]
  indexVectorDim := 1
  sliceSizes := ![1, 4]
  wf := gather_S65535x4_S4194304x1_S4194304x4_1_0_n_n_0_1_14_wf
def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v10) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S65535x4 : Shape := ⟨2, ![65535, 4]⟩
abbrev S4194304 : Shape := ⟨1, ![4194304]⟩
abbrev S4096 : Shape := ⟨1, ![4096]⟩
abbrev S_ : Shape := ⟨0, ![]⟩
abbrev S4194304x1 : Shape := ⟨2, ![4194304, 1]⟩
abbrev S4194304x4 : Shape := ⟨2, ![4194304, 4]⟩
abbrev S4096x4096 : Shape := ⟨2, ![4096, 4096]⟩
abbrev S1x1x4096 : Shape := ⟨3, ![1, 1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S65535x4, .i32⟩
  | .hbm, ⟨2, _⟩ => ⟨S4194304, .i32⟩
  | .hbm, ⟨3, _⟩ => ⟨S4096, .f32⟩
  | .hbm, ⟨4, _⟩ => ⟨S_, .i32⟩
  | .hbm, ⟨5, _⟩ => ⟨S4194304, .i32⟩
  | .hbm, ⟨6, _⟩ => ⟨S4194304, .i1⟩
  | .hbm, ⟨7, _⟩ => ⟨S_, .i32⟩
  | .hbm, ⟨8, _⟩ => ⟨S4194304, .i32⟩
  | .hbm, ⟨9, _⟩ => ⟨S4194304, .i32⟩
  | .hbm, ⟨10, _⟩ => ⟨S4194304, .i32⟩
  | .hbm, ⟨11, _⟩ => ⟨S4194304x1, .i32⟩
  | .hbm, ⟨12, _⟩ => ⟨S4194304x4, .i32⟩
  | .hbm, ⟨13, _⟩ => ⟨S4096x4096, .i32⟩
  | .hbm, ⟨14, _⟩ => ⟨S4096x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  bcast_S4194304_S4194304x1_0 : S4194304.BroadcastsInDim S4194304x1 (![0] : Fin 1 → Fin S4194304x1.rank)
  shapeCasts_S4194304x4_S4096x4096 : S4194304x4.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S65535x4_S4194304x1_S4194304x4_1_0_n_n_0_1_14_wf : GatherDims.WF S65535x4 S4194304x1 S4194304x4 [1] [0] [] [0] [] 1 ![1, 4]
  dot_S4x2048x4096_S4096x4096_S4x2048x4096_2_1_01_0_n_n_wf : DotDims.WF S4x2048x4096 S4096x4096 S4x2048x4096 [2] [1] [0, 1] [0] [] []

variable [Facts₀]

def gather_S65535x4_S4194304x1_S4194304x4_1_0_n_n_0_1_14 : GatherDims S65535x4 S4194304x1 S4194304x4 where
  offsetDims := [1]
  collapsedSliceDims := [0]
  operandBatchingDims := []
  startIndicesBatchingDims := []
  startIndexMap := [0]
  indexVectorDim := 1
  sliceSizes := ![1, 4]
  wf := gather_S65535x4_S4194304x1_S4194304x4_1_0_n_n_0_1_14_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics both programs compute, stated once and over no program: a linear layer whose weight matrix is an
  integer array read exactly.  For activations `x[p, s, k]` (4 × 2048 × 4096), weights `w[o, k]` (4096 × 4096) and a
  bias `b[o]` (4096), all extended reals, the result at `(p, s, o)` is

      (∑ k < 4096, x[p, s, k] · w[o, k]) + b[o].

  The sum is a finite sum in a commutative monoid, so no order or grouping of the terms is part of its meaning: a
  blocked evaluation that keeps the whole contraction axis inside each block and a single contraction over that axis
  are the same sum, term for term.  Nothing here needs the inputs to be finite.

  The same function is also stated over the flattened row axis `r = p · 2048 + s` (8192 × 4096), which is the
  arrangement in which a row-blocked evaluation produces it, together with the fact that reading the flattened form
  at `(p · 2048 + s, o)` gives the unflattened one.
-/
import Idealize.ShloMosaic.PureOps.Ideal
import Idealize.ShloMosaic.Lib.ValueIdx

noncomputable section

open scoped BigOperators

namespace Cert.LinearSpec

open Idealize.ShloMosaic Idealize.ShloMosaic.ValueIdx

/-- Activations: 4 batches of 2048 rows of 4096 features. -/
abbrev SAct : Shape := ⟨3, ![4, 2048, 4096]⟩
/-- The same rows flattened: 8192 rows of 4096 features. -/
abbrev SFlat : Shape := ⟨2, ![8192, 4096]⟩
/-- Weights: 4096 output features by 4096 input features. -/
abbrev SWt : Shape := ⟨2, ![4096, 4096]⟩
/-- The bias, one entry per output feature. -/
abbrev SBias : Shape := ⟨1, ![4096]⟩
/-- The bias as a single row. -/
abbrev SBiasRow : Shape := ⟨2, ![1, 4096]⟩

/-- One entry of the layer's result, by coordinates: the inner product of activation row `(p, s)` with weight row `o`,
    plus the bias at `o`. -/
def linearAt (x : SAct.Idx → EReal) (w : SWt.Idx → EReal) (b : SBias.Idx → EReal)
    (p : Fin 4) (s : Fin 2048) (o : Fin 4096) : EReal :=
  (∑ k : Fin 4096, x (ix3 p s k) * w (ix2 o k)) + b (ix1 o)

/-- The layer's result as one array. -/
def linear (x : SAct.Idx → EReal) (w : SWt.Idx → EReal) (b : SBias.Idx → EReal) : SAct.Idx → EReal :=
  fun i => linearAt x w b (i 0) (i 1) (i 2)

/-- One entry of the result over flattened rows: row `r` of the activations against weight row `o`, plus the bias
    row's entry at `o`. -/
def linearFlatAt (x : SFlat.Idx → EReal) (w : SWt.Idx → EReal) (b : SBiasRow.Idx → EReal)
    (r : Fin 8192) (o : Fin 4096) : EReal :=
  (∑ k : Fin 4096, x (ix2 r k) * w (ix2 o k)) + b (ix2 (0 : Fin 1) o)

/-- The result over flattened rows as one array. -/
def linearFlat (x : SFlat.Idx → EReal) (w : SWt.Idx → EReal) (b : SBiasRow.Idx → EReal) : SFlat.Idx → EReal :=
  fun j => linearFlatAt x w b (j 0) (j 1)

/-- Row `p · 2048 + s` of the flattened rows. -/
def flatRow (p : Fin 4) (s : Fin 2048) : Fin 8192 := ⟨p.val * 2048 + s.val, by have := p.isLt; have := s.isLt; omega⟩

/-- If the flattened activations at `(p · 2048 + s, k)` are the activations at `(p, s, k)` and the bias row at `(0, o)`
    is the bias at `o`, then the flattened result at `(p · 2048 + s, o)` is the result at `(p, s, o)`: the two sums have
    the same terms. -/
theorem linearFlatAt_flatRow (x : SAct.Idx → EReal) (xf : SFlat.Idx → EReal) (w : SWt.Idx → EReal)
    (b : SBias.Idx → EReal) (br : SBiasRow.Idx → EReal)
    (hx : ∀ (p : Fin 4) (s : Fin 2048) (k : Fin 4096), xf (ix2 (flatRow p s) k) = x (ix3 p s k))
    (hb : ∀ o : Fin 4096, br (ix2 (0 : Fin 1) o) = b (ix1 o))
    (p : Fin 4) (s : Fin 2048) (o : Fin 4096) :
    linearFlatAt xf w br (flatRow p s) o = linearAt x w b p s o := by
  unfold linearFlatAt linearAt
  rw [hb o]
  exact congrArg (· + b (ix1 o)) (Finset.sum_congr rfl fun k _ => by rw [hx p s k])

end Cert.LinearSpec

end
-- ==== Proof.RefValue.lean ====
/-
  The reference program's result, read at an index, is the linear layer of the specification.

  The reference contracts the activations' feature axis against the weights' input-feature axis in a single
  contraction, `∑ k, x[p, s, k] · w[o, k]`, and then adds the bias broadcast along the batch and row axes, so its entry at
  `(p, s, o)` is that sum plus `b[o]`.  Here `w` is the integer weight array converted exactly to extended reals; how
  that integer array is assembled from the codebook never matters below, so it is kept as one unopened term.

  What is proved by hand is only that the three index functions through which the generated read-at-an-index lemmas
  address the operands are the coordinate constructors of the specification: the left operand is read at `(p, s, k)`,
  the right at `(o, k)`, the bias at `o`.
-/
import proofs.«161971_j7919919694465_1_alg».proof.Proof.Gen.ReferenceIdeal.Read
import proofs.«161971_j7919919694465_1_alg».proof.Proof.Spec

noncomputable section

open scoped BigOperators

namespace Cert.ReferenceIdeal.RefValue

open Cert.ReferenceIdeal Cert.ReferenceIdeal.Read Cert.LinearSpec
open Idealize.ShloMosaic Idealize.ShloMosaic.ValueIdx

/-- The contraction reads the activations at `(p, s, k)`. -/
theorem lidx_eq (i : S4x2048x4096.Idx) (k : Fin 4096) :
    lidx_main_v9 i k = ix3 (n0 := 4) (n1 := 2048) (n2 := 4096) (i 0) (i 1) k :=
  funext fun a => Fin.ext (by match a with | ⟨0, _⟩ => rfl | ⟨1, _⟩ => rfl | ⟨2, _⟩ => rfl)

/-- The contraction reads the weights at `(o, k)`: row `o` is the result's feature coordinate. -/
theorem ridx_eq (i : S4x2048x4096.Idx) (k : Fin 4096) :
    ridx_main_v9 i k = ix2 (n0 := 4096) (n1 := 4096) (i 2) k :=
  funext fun a => Fin.ext (by match a with | ⟨0, _⟩ => rfl | ⟨1, _⟩ => rfl)

/-- The two broadcasts of the bias read it at the result's feature coordinate. -/
theorem bidx_eq (i : S4x2048x4096.Idx) :
    idx_main_v10 (idx_main_v11 i) = ix1 (n := 4096) (i 2) :=
  funext fun a => Fin.ext (by match a with | ⟨0, _⟩ => rfl)

/-- The reference's result is the linear layer of the activations, the exactly converted integer weights and the
    bias. -/
theorem result_eq_linear (x0 : (⟨S4x2048x4096, .f32⟩ : BufTy).Contents (Elt Ideal))
    (x1 : (⟨S65535x4, .i32⟩ : BufTy).Contents (Elt Ideal)) (x2 : (⟨S4194304, .i32⟩ : BufTy).Contents (Elt Ideal))
    (x3 : (⟨S4096, .f32⟩ : BufTy).Contents (Elt Ideal)) :
    val_main_v12 (F := Ideal) x0 x1 x2 x3 = linear x0 (val_main_v8 (F := Ideal) x1 x2) x3 := by
  funext i
  rw [val_main_v12_apply, val_main_v9_apply, val_main_v11_apply, val_main_v10_apply]
  simp only [lidx_eq, ridx_eq, bidx_eq]
  rfl

end Cert.ReferenceIdeal.RefValue

end
-- ==== Proof.KernelBody.lean ====
/-
  One grid step of the kernel, as arithmetic.

  A step holds a block of 1024 activation rows (all 4096 features), a block of 512 weight rows (all 4096 input
  features) and the matching 512 bias entries as a single row.  It multiplies the first block by the transpose of the
  second, accumulating from zero, and adds the bias row to every row of the product.  So the entry at `(p, q)` of what
  it stores is

      (∑ k < 4096, xblk[p, k] · wblk[q, k]) + bblk[0, q].

  The contraction runs over the blocks' whole second axis: a step sees every term of its inner products, and no partial
  sum is ever carried from one step to another.
-/
import proofs.«161971_j7919919694465_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

/-! ## Which entries the product reads -/

/-- The left operand's row is the product's row. -/
theorem lhs_axis0 (j : S1024x512.Idx) (q : dot_S1024x4096_S512x4096_S1024x512_1_1_0_0_n_n.contr.Idx) :
    (dot_S1024x4096_S512x4096_S1024x512_1_1_0_0_n_n.lhsIdx j q 0).val = (j 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
/-- The left operand's column is the contraction position. -/
theorem lhs_axis1 (j : S1024x512.Idx) (q : dot_S1024x4096_S512x4096_S1024x512_1_1_0_0_n_n.contr.Idx) :
    (dot_S1024x4096_S512x4096_S1024x512_1_1_0_0_n_n.lhsIdx j q 1).val = (q ⟨0, by decide⟩).val :=
  dot_S1024x4096_S512x4096_S1024x512_1_1_0_0_n_n.lhsIdx_val_of_single rfl j q
/-- The right operand's row is the product's column. -/
theorem rhs_axis0 (j : S1024x512.Idx) (q : dot_S1024x4096_S512x4096_S1024x512_1_1_0_0_n_n.contr.Idx) :
    (dot_S1024x4096_S512x4096_S1024x512_1_1_0_0_n_n.rhsIdx j q 0).val = (j 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
/-- The right operand's column is the contraction position. -/
theorem rhs_axis1 (j : S1024x512.Idx) (q : dot_S1024x4096_S512x4096_S1024x512_1_1_0_0_n_n.contr.Idx) :
    (dot_S1024x4096_S512x4096_S1024x512_1_1_0_0_n_n.rhsIdx j q 1).val = (q ⟨0, by decide⟩).val :=
  dot_S1024x4096_S512x4096_S1024x512_1_1_0_0_n_n.rhsIdx_val_of_single rfl j q

/-! ## The product from zero, at an entry -/

/-- Row `p` of the left block against row `q` of the right block: the product accumulated from zero is the plain inner
    product over the 4096 contraction positions. -/
theorem product_at (a : FVec Ideal S1024x4096 .bf16) (b : FVec Ideal S512x4096 .bf16) (p : Fin 1024) (q : Fin 512) :
    matmul dot_S1024x4096_S512x4096_S1024x512_1_1_0_0_n_n none a b (constant S1024x512 .f32 0x00000000#32) (ix2 p q)
      = ∑ k : Fin 4096, a (ix2 p k) * b (ix2 q k) := by
  refine (Ideal.matmul_constant_zero_apply dot_S1024x4096_S512x4096_S1024x512_1_1_0_0_n_n none a b (ix2 p q)).trans ?_
  rw [← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun d => Fin.ext (by
    match d with
    | ⟨0, _⟩ => exact lhs_axis0 _ _
    | ⟨1, _⟩ => exact (lhs_axis1 _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun d => Fin.ext (by
    match d with
    | ⟨0, _⟩ => exact rhs_axis0 _ _
    | ⟨1, _⟩ => exact (rhs_axis1 _ _).trans hk)
  rw [el, er]

/-! ## What a step stores -/

/-- The bias row spread over the product's rows, read at `(p, q)`, is the row's entry `q`. -/
theorem bias_rows_at (r : FVec Ideal S1x512 .f32) (p : Fin 1024) (q : Fin 512) :
    broadcastTo S1024x512 r broadcasts_S1x512_S1024x512 (ix2 p q) = r (ix2 (0 : Fin 1) q) :=
  broadcastTo_apply r broadcasts_S1x512_S1024x512 (ix2 p q) (ix2 (0 : Fin 1) q) (fun d => by
    match d with
    | ⟨0, _⟩ => show 0 = if (1 : Nat) = 1 then 0 else p.val; rw [if_pos rfl]
    | ⟨1, _⟩ => show q.val = if (512 : Nat) = 1 then 0 else q.val; rw [if_neg (by decide)])

/-- The stored block at `(p, q)`: the inner product of activation row `p` and weight row `q`, plus bias entry `q`. -/
theorem stored_at (x0 : Vec Ideal S1024x4096 .bf16) (x1 : Vec Ideal S512x4096 .bf16) (x2 : Vec Ideal S1x512 .f32)
    (p : Fin 1024) (q : Fin 512) :
    k0_pay1 (F := Ideal) x0 x1 x2 (ix2 p q) = (∑ k : Fin 4096, x0 (ix2 p k) * x1 (ix2 q k)) + x2 (ix2 (0 : Fin 1) q) := by
  unfold k0_pay1
  rw [shapeCast_self, shapeCast_self, shapeCast_self]
  show matmul (F := Ideal) dot_S1024x4096_S512x4096_S1024x512_1_1_0_0_n_n none x0 x1 (constant (F := Ideal) S1024x512 .f32 0x00000000#32) (ix2 p q)
      + broadcastTo S1024x512 x2 broadcasts_S1x512_S1024x512 (ix2 p q) = _
  rw [product_at, bias_rows_at]

end Cert.KernelIdeal.Body

end
-- ==== Proof.KernelValue.lean ====
/-
  From grid steps to the whole array.

  The grid is 8 × 8.  Step `(a, b)` reads activation rows `1024·a … 1024·a + 1023` (every feature), weight rows
  `512·b … 512·b + 511` (every input feature) and bias entries `512·b … 512·b + 511`, and writes back the 1024 × 512 block
  of the result at block position `(a, b)`.  By the arithmetic of one step, the entry it writes at `(p, q)` of its block is
  the flattened linear layer at row `1024·a + p`, column `512·b + q`: the step's inner product runs over the same 4096
  terms as the layer's, because each block spans the whole contraction axis.

  So every written block is a restriction of ONE array-wide function, and since the 64 blocks tile the 8192 × 4096
  result (row `r` lies in block row `r / 1024`, column `o` in block column `o / 512`), the array after the run is that
  function.
-/
import proofs.«161971_j7919919694465_1_alg».proof.Proof.Gen.KernelIdeal.Frame
import proofs.«161971_j7919919694465_1_alg».proof.Proof.KernelBody
import proofs.«161971_j7919919694465_1_alg».proof.Proof.Spec
import Idealize.ShloMosaic.Lib.Pipeline.Value

set_option maxRecDepth 16384

noncomputable section

open scoped BigOperators

namespace Cert.KernelIdeal.BlockValue

open Cert.KernelIdeal Cert.KernelIdeal.Gen Cert.KernelIdeal.Body Cert.LinearSpec
open Idealize.ShloMosaic Idealize.ShloMosaic.TcCoe Idealize.ShloMosaic.ValueIdx
open Idealize.SL.Sem
open Idealize.ShloMosaic.Pipeline (Dat Cfg Window)

/-! ## One step against the array-wide function, over plain arrays -/

/-- If row `p` of the activation block is row `r` of the activations, row `q` of the weight block is row `o` of the
    weights, and entry `q` of the bias block is entry `o` of the bias row, then what the step stores at `(p, q)` is the
    flattened layer at `(r, o)`. -/
theorem stored_eq_layer (X : SFlat.Idx → EReal) (W : SWt.Idx → EReal) (B : SBiasRow.Idx → EReal)
    (x0 : Vec Ideal S1024x4096 .bf16) (x1 : Vec Ideal S512x4096 .bf16) (x2 : Vec Ideal S1x512 .f32)
    (r : Fin 8192) (o : Fin 4096) (p : Fin 1024) (q : Fin 512)
    (h0 : ∀ k : Fin 4096, x0 (ix2 p k) = X (ix2 r k))
    (h1 : ∀ k : Fin 4096, x1 (ix2 q k) = W (ix2 o k))
    (h2 : x2 (ix2 (0 : Fin 1) q) = B (ix2 (0 : Fin 1) o)) :
    k0_pay1 (F := Ideal) x0 x1 x2 (ix2 p q) = linearFlatAt X W B r o := by
  rw [stored_at, h2]
  unfold linearFlatAt
  exact congrArg (· + B (ix2 (0 : Fin 1) o)) (Finset.sum_congr rfl fun k _ => by rw [h0 k, h1 k])

/-! ## The grid's block positions -/

variable (m : (ℓ : Loc nD τ sig) → Buf (Elt Ideal) ℓ)

theorem zero_offsets : (![0, 0] : Fin 2 → Nat) = fun _ => 0 := funext fun a => by fin_cases a <;> rfl

/-- Where each step's blocks sit, decided over the 64 steps: the activation block is at the output's block row and
    spans the features from 0; the weight block is at the output's block column (as a block ROW of the weights) and
    spans the input features from 0; the bias block is at the output's block column. -/
theorem block_positions : ∀ t : Fin cfg0.N,
      win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 7
    ∧ win0_3.index t (1 : Fin 2) ≤ 7 :=
  (by decide +kernel : ∀ t : Fin grid0.N, _)

/-- Every block position of the 8 × 8 tiling is some step's. -/
theorem block_onto : ∀ (a : Fin 8) (b : Fin 8), ∃ t : Fin cfg0.N, win0_3.index t = ![a.val, b.val] :=
  (by decide +kernel : ∀ (a : Fin 8) (b : Fin 8), ∃ t : Fin grid0.N, win0_3.index t = ![a.val, b.val])

/-! ## What a step writes back -/

/-- What step `t` writes back is block `t` of the flattened layer of the arrays the region is entered with. -/
theorem flushed_eq (c : Dev nD) (t : Fin cfg0.N) :
    (dats m 0 c).flushed 3 t
      = ((cfg0.win 3).blk t).view.read (Elt Ideal) (linearFlat (V m c main_v10) (V m c main_v8) (V m c main_v11)) := by
  show (cfg0.win 3).cut (grid0.coords t) ((dats m 0 c).after 3 t) = _
  rw [after0_3]
  unfold out0_3
  rw [View.canon_unit_zero zero_offsets]
  simp only [View.ld_unit_zero (S := S1024x4096) zero_offsets, View.ld_unit_zero (S := S512x4096) zero_offsets,
    View.ld_unit_zero (S := S1x512) zero_offsets]
  obtain ⟨e0, e1, e2, e3, e4, e5, e6, e7⟩ := block_positions t
  funext j
  have hj0 : (j 0).val < 1024 := (j 0).isLt
  have hj1 : (j 1).val < 512 := (j 1).isLt
  show k0_pay1 (F := Ideal) (iblk m c 0 t) (iblk m c 1 t) (iblk m c 2 t) (ix2 (⟨(j 0).val, hj0⟩ : Fin 1024) (⟨(j 1).val, hj1⟩ : Fin 512))
      = linearFlatAt (V m c main_v10) (V m c main_v8) (V m c main_v11)
          ((((cfg0.win 3).blk t).view.emb j) 0) ((((cfg0.win 3).blk t).view.emb j) 1)
  refine stored_eq_layer (V m c main_v10) (V m c main_v8) (V m c main_v11) (iblk m c 0 t) (iblk m c 1 t) (iblk m c 2 t)
    ((((cfg0.win 3).blk t).view.emb j) 0) ((((cfg0.win 3).blk t).view.emb j) 1) ⟨(j 0).val, hj0⟩ ⟨(j 1).val, hj1⟩ ?_ ?_ ?_
  · intro k
    show V m c main_v10 (((cfg0.win 0).blk t).view.emb (ix2 (⟨(j 0).val, hj0⟩ : Fin 1024) k)) = V m c main_v10 _
    refine congrArg (V m c main_v10) (funext fun a => Fin.ext ?_)
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 4096 + 1 * k.val = k.val; omega
  · intro k
    show V m c main_v8 (((cfg0.win 1).blk t).view.emb (ix2 (⟨(j 1).val, hj1⟩ : Fin 512) k)) = V m c main_v8 _
    refine congrArg (V m c main_v8) (funext fun a => Fin.ext ?_)
    match a with
    | ⟨0, _⟩ => show win0_1.index t (0 : Fin 2) * 512 + 1 * (j 1).val = win0_3.index t (1 : Fin 2) * 512 + 1 * (j 1).val; omega
    | ⟨1, _⟩ => show win0_1.index t (1 : Fin 2) * 4096 + 1 * k.val = k.val; omega
  · show V m c main_v11 (((cfg0.win 2).blk t).view.emb (ix2 (0 : Fin 1) (⟨(j 1).val, hj1⟩ : Fin 512))) = V m c main_v11 _
    refine congrArg (V m c main_v11) (funext fun a => Fin.ext ?_)
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega

/-! ## The blocks tile the array -/

/-- An index of the result is in step `t`'s block iff each coordinate is in the block's range on its axis. -/
theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v12).slice (win0_3.rect t)).set ↔ _
  rw [View.set_slice_whole, Rect.mem_set_unit]
  exact Iff.rfl

/-- Every index of the result is in the block of the step at block row `r / 1024`, block column `o / 512`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-! ## The array after the run -/

/-- The result array after the last step is the flattened layer of the arrays the region is entered with. -/
theorem array_eq (c : Dev nD) :
    (dats m 0 c).arrAt 3 cfg0.N = linearFlat (V m c main_v10) (V m c main_v8) (V m c main_v11) :=
  (dats m 0 c).arrAt_eq_of_cover 3 _ (fun t _ => flushed_eq m c t) covered

end Cert.KernelIdeal.BlockValue

end
-- ==== Proof.KernelRun.lean ====
/-
  The kernel program around its grid: what the grid is entered with, and what the program returns.

  Before the grid the program prepares three arrays.  The activations `x[p, s, k]` are flattened to rows
  `r = 2048·p + s` (a change of float format follows, which does nothing to an extended real).  The bias is viewed as a
  single row.  The weights are the integer array assembled from the codebook, converted exactly.  After the grid the
  8192 × 4096 result is unflattened back to `[p, s, o]`.

  A reshape keeps row-major position, so each of the three is read at an index by equating two positions:
  `(2048·p + s)·4096 + k` on both sides for the activations and for the result, `o` on both sides for the bias.  With
  the grid's array being the flattened layer of those three arrays, the program's result is the layer itself.
-/
import proofs.«161971_j7919919694465_1_alg».proof.Proof.Gen.KernelIdeal.Frame
import proofs.«161971_j7919919694465_1_alg».proof.Proof.KernelValue
import proofs.«161971_j7919919694465_1_alg».proof.Proof.Spec
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.RunValue

open Cert.KernelIdeal Cert.KernelIdeal.Gen Cert.KernelIdeal.BlockValue Cert.LinearSpec
open Idealize.ShloMosaic Idealize.ShloMosaic.TcCoe Idealize.ShloMosaic.ValueIdx Idealize.ShloMosaic.StableHlo
open Idealize.SL.Sem

/-! ## Reshapes read at an index, over plain arrays -/

/-- The flattened activations at row `2048·p + s`, feature `k`, are the activations at `(p, s, k)`. -/
theorem flat_acts_at (x : FVec Ideal S4x2048x4096 .f32) (p : Fin 4) (s : Fin 2048) (k : Fin 4096) :
    (truncf (F := Ideal) .bf16 (shapeCast S8192x4096 x shapeCasts_S4x2048x4096_S8192x4096) bitsLt_bf16_f32)
        (ix2 (flatRow p s) k) = x (ix3 p s k) := by
  show shapeCast S8192x4096 x shapeCasts_S4x2048x4096_S8192x4096 (ix2 (flatRow p s) k) = _
  exact shapeCast_apply x shapeCasts_S4x2048x4096_S8192x4096 (ix2 (flatRow p s) k) (ix3 p s k) (by
    rw [Shape.rowMajor_val_three, Shape.rowMajor_val_two]
    rfl)

/-- The bias row at `(0, o)` is the bias at `o`. -/
theorem bias_row_at (b : FVec Ideal S4096 .f32) (o : Fin 4096) :
    shapeCast S1x4096 b shapeCasts_S4096_S1x4096 (ix2 (0 : Fin 1) o) = b (ix1 o) :=
  shapeCast_apply b shapeCasts_S4096_S1x4096 (ix2 (0 : Fin 1) o) (ix1 o) (by
    rw [Shape.rowMajor_val_one, Shape.rowMajor_val_two]
    show o.val = 0 * 4096 + o.val
    omega)

/-- The unflattened result at `(p, s, o)` is the flat result at row `2048·p + s`, column `o`. -/
theorem unflatten_at (A : FVec Ideal S8192x4096 .f32) (p : Fin 4) (s : Fin 2048) (o : Fin 4096) :
    shapeCast S4x2048x4096 A shapeCasts_S8192x4096_S4x2048x4096 (ix3 p s o) = A (ix2 (flatRow p s) o) :=
  shapeCast_apply A shapeCasts_S8192x4096_S4x2048x4096 (ix3 p s o) (ix2 (flatRow p s) o) (by
    rw [Shape.rowMajor_val_three, Shape.rowMajor_val_two]
    rfl)

/-! ## The arrays the grid is entered with -/

/-- The weights: the integer array assembled from the codebook and the code stream, each entry converted exactly to an
    extended real.  Which codebook entry lands where plays no part in what follows. -/
def weights (x1 : (⟨S65535x4, .i32⟩ : BufTy).Contents (Elt Ideal)) (x2 : (⟨S4194304, .i32⟩ : BufTy).Contents (Elt Ideal)) :
    (⟨S4096x4096, .bf16⟩ : BufTy).Contents (Elt Ideal) :=
  sitofp (F := Ideal) .bf16 (shapeCast _ (Host.gather gather_S65535x4_S4194304x1_S4194304x4_1_0_n_n_0_1_14 (x1) (broadcastInDim S4194304x1 ![0] bcast_S4194304_S4194304x1_0 (select (cmpi .slt (x2) (broadcastInDim S4194304 ![] bcast_S_S4194304 (constantI S_ 32 0#32))) (addi (x2) (broadcastInDim S4194304 ![] bcast_S_S4194304 (constantI S_ 32 65535#32))) (x2)))) shapeCasts_S4194304x4_S4096x4096)

variable (m : (ℓ : Loc nD τ sig) → Buf (Elt Ideal) ℓ) (ρ : Dev nD → PrngReg)

/-- The grid's first operand: the flattened activations. -/
theorem entry_acts (c : Dev nD) :
    V m c main_v10 = truncf (F := Ideal) .bf16 (shapeCast S8192x4096 (m ((c : Thread nD τ).loc main_arg0)) shapeCasts_S4x2048x4096_S8192x4096) bitsLt_bf16_f32 := by
  show StableHlo.after hostOps0 (fun b => m (c, b)) (Proc.devRef .tc main_v10) = _
  after_results; rfl

/-- The grid's second operand: the weights. -/
theorem entry_weights (c : Dev nD) :
    V m c main_v8 = weights (m ((c : Thread nD τ).loc main_arg1)) (m ((c : Thread nD τ).loc main_arg2)) := by
  show StableHlo.after hostOps0 (fun b => m (c, b)) (Proc.devRef .tc main_v8) = _
  after_results; rfl

/-- The grid's third operand: the bias as a row. -/
theorem entry_bias (c : Dev nD) :
    V m c main_v11 = shapeCast S1x4096 (m ((c : Thread nD τ).loc main_arg3)) shapeCasts_S4096_S1x4096 := by
  show StableHlo.after hostOps0 (fun b => m (c, b)) (Proc.devRef .tc main_v11) = _
  after_results; rfl

/-! ## What the program returns -/

/-- The program's result: the layer of the activations, the weights and the bias it was launched with. -/
theorem result_eq (c : Dev nD) :
    Pipeline.afterTail₀ cfgs (dats m) 0 (V0 m) [hostOps1] c main_v13
      = linear (m ((c : Thread nD τ).loc main_arg0)) (weights (m ((c : Thread nD τ).loc main_arg1)) (m ((c : Thread nD τ).loc main_arg2)))
          (m ((c : Thread nD τ).loc main_arg3)) := by
  unfold Pipeline.afterTail₀
  show StableHlo.after hostOps1 _ (Proc.devRef .tc main_v13) = _
  after_results
  funext i
  obtain ⟨p, s, o, rfl⟩ : ∃ (p : Fin 4) (s : Fin 2048) (o : Fin 4096), i = ix3 p s o := ⟨i 0, i 1, i 2, eq_ix3 i⟩
  show shapeCast S4x2048x4096 (Pipeline.withArrays spec0 c (V0 m c) (fun w => (dats m 0 c).arrAt w cfg0.N) (Proc.devRef .tc main_v12))
      shapeCasts_S8192x4096_S4x2048x4096 (ix3 p s o) = linearAt _ _ _ p s o
  rw [unflatten_at]
  have hgrid : Pipeline.withArrays spec0 c (V0 m c) (fun w => (dats m 0 c).arrAt w cfg0.N) (Proc.devRef .tc main_v12)
      = linearFlat (V m c main_v10) (V m c main_v8) (V m c main_v11) :=
    (Pipeline.withArrays_arr spec0 launch0.win.arr_inj c _ _ 3).trans (array_eq m c)
  rw [hgrid]
  show linearFlatAt (V m c main_v10) (V m c main_v8) (V m c main_v11) (flatRow p s) o = _
  rw [entry_acts, entry_weights, entry_bias]
  exact linearFlatAt_flatRow _ _ _ _ _ (fun p s k => flat_acts_at _ p s k) (fun o => bias_row_at _ o) p s o

/-- Every weakly fair execution of the program terminates with the result array at the layer of the launch arrays and
    the four argument arrays unchanged: the grid's run, with the result read through the unflattening that follows it. -/
theorem run : θ_run defs (onTc (τ := τ) (main (F := Ideal))) ⟨m, fun _ => 0, ρ⟩ fun r => ∀ c : Dev nD,
      r.2.mem ((c.tc : Thread nD τ).loc main_v13)
        = linear (m ((c.tc : Thread nD τ).loc main_arg0)) (weights (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v13 (Pipeline.mem_restRefs_of main_v13 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.RunValue

end
-- ==== Proof.lean ====
/-
  A linear layer whose weights are stored as codes into a small integer codebook:

      out[p, s, o] = (∑ k < 4096, x[p, s, k] · w[o, k]) + bias[o],      w = the decoded integer weights, read exactly.

  Both programs decode the weights the same way (the same lookups in the same order), so the decoded integer array is
  one common term and is never opened.  They differ in two things, and neither changes the value over the extended
  reals.  First, one converts the integers to a narrower float format than the other; an integer converted to an
  extended real is that integer whatever the format's name.  Second, one evaluates the layer as a single contraction
  over the feature axis, the other flattens the rows and evaluates 64 blocks of 1024 rows by 512 output features; each
  block keeps the WHOLE feature axis, so every inner product is summed in one place over the same 4096 terms, and the
  blocks tile the result.  A finite sum in a commutative monoid does not depend on how it is arranged, so no
  finiteness of the inputs is used anywhere.

  The idealized kernel is the kernel's own text read over the extended reals (no operation was rewritten), so the
  statement relating the two is trivial.  Each program's termination and the preservation of its arguments come with
  its run.
-/
import proofs.«161971_j7919919694465_1_alg».proof.Defs
import proofs.«161971_j7919919694465_1_alg».proof.Proof.Gen.Kernel
import proofs.«161971_j7919919694465_1_alg».proof.Proof.Gen.Kernel.Skeleton
import proofs.«161971_j7919919694465_1_alg».proof.Proof.Gen.Kernel.Launch
import proofs.«161971_j7919919694465_1_alg».proof.Proof.Gen.Kernel.Points
import proofs.«161971_j7919919694465_1_alg».proof.Proof.Gen.Kernel.Frame
import proofs.«161971_j7919919694465_1_alg».proof.Proof.Gen.KernelIdeal
import proofs.«161971_j7919919694465_1_alg».proof.Proof.Gen.KernelIdeal.Skeleton
import proofs.«161971_j7919919694465_1_alg».proof.Proof.Gen.KernelIdeal.Launch
import proofs.«161971_j7919919694465_1_alg».proof.Proof.Gen.KernelIdeal.Points
import proofs.«161971_j7919919694465_1_alg».proof.Proof.Gen.KernelIdeal.Frame
import proofs.«161971_j7919919694465_1_alg».proof.Proof.Gen.ReferenceIdeal
import proofs.«161971_j7919919694465_1_alg».proof.Proof.Gen.Pre_finite_inputs
import proofs.«161971_j7919919694465_1_alg».proof.Proof.Gen.ReferenceIdeal.Run
import proofs.«161971_j7919919694465_1_alg».proof.Proof.Gen.ReferenceIdeal.Read
import proofs.«161971_j7919919694465_1_alg».proof.Proof.Spec
import proofs.«161971_j7919919694465_1_alg».proof.Proof.RefValue
import proofs.«161971_j7919919694465_1_alg».proof.Proof.KernelRun
import Idealize.ShloMosaic.Adequacy
import Idealize.ShloMosaic.Init

noncomputable section

namespace Cert.Proof

open Idealize.ShloMosaic Idealize.SL.Sem Cert.LinearSpec

/-- The two programs' weight arrays are one function: the same decoded integers, each converted exactly, the target
    format playing no part in the value. -/
theorem weights_eq (x1 : (⟨Cert.KernelIdeal.S65535x4, .i32⟩ : BufTy).Contents (Elt Ideal))
    (x2 : (⟨Cert.KernelIdeal.S4194304, .i32⟩ : BufTy).Contents (Elt Ideal)) :
    Cert.KernelIdeal.RunValue.weights x1 x2 = Cert.ReferenceIdeal.Read.val_main_v8 (F := Ideal) x1 x2 := rfl

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference terminates and keeps its arguments: its run, with the statement about the result dropped. -/
theorem frame_referenceIdeal : Cert.frame_ReferenceIdeal :=
  fun m ρ _ => (θ_run Cert.ReferenceIdeal.defs _ _).mono (fun _ h c => (h c).2) (Cert.ReferenceIdeal.Value.run (F := Ideal) m ρ)

/-- From launch arrays that agree, both programs end with the layer of those arrays. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v12_eq, Cert.ReferenceIdeal.RefValue.result_eq_linear,
    (hagree c).1, (hagree c).2.1, (hagree c).2.2.1, (hagree c).2.2.2, weights_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
